-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S680x10000 : Shape := ⟨2, ![680, 10000]⟩
abbrev S680x128 : Shape := ⟨2, ![680, 128]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S680x10000, .f32⟩
  | .local _ .vmem, ⟨5, _⟩ => ⟨S680x10000, .f32⟩
  | .local _ .vmem, ⟨6, _⟩ => ⟨S680x128, .f32⟩
  | .local _ .vmem, ⟨7, _⟩ => ⟨S680x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S680x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S680x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S680x10000_S680x10000_0_0 : ∀ a, (![0, 0] : Fin 2 → Nat) a + S680x10000.size a ≤ S680x10000.size a
  h_S680x10000 : 0 < S680x10000.numel
  shapeCasts_S10000x128_S10000x128 : S10000x128.ShapeCasts S10000x128
  inb_S680x128_S680x128_0_0 : ∀ a, (![0, 0] : Fin 2 → Nat) a + S680x128.size a ≤ S680x128.size a
  h_S680x128 : 0 < S680x128.numel
  dot_S10000x128_S128x128_S10000x128_1_0_0_1_n_n_wf : DotDims.WF S10000x128 S128x128 S10000x128 [1] [0] [0] [1] [] []
  dot_S680x10000_S10000x128_S680x128_1_0_0_1_n_n_wf : DotDims.WF S680x10000 S10000x128 S680x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S680x10000.size a < S10000x10000.size a
  hwx1_1 : ∀ i : grid1.Coords, EltTy.bits .f32 = 32 ∨ (Rect.unit (s := S10000x10000) (fun a => cc1_transform_1 i a * S680x10000.size a) (fun a => (Pipeline.Clip.of (cc1_transform_1 i a) (S680x10000.size a) (S10000x10000.size a)).extent (S680x10000.size a)) fun a => Pipeline.Clip.inb (Pipeline.Clip.ok_of (hstart1_1 i a))).WholeWords (EltTy.packing .f32)
  hwxs1_1 : ∀ i : grid1.Coords, EltTy.bits .f32 = 32 ∨ (Rect.unit (s := S680x10000) (fun _ => 0) (fun a => (Pipeline.Clip.of (cc1_transform_1 i a) (S680x10000.size a) (S10000x10000.size a)).extent (S680x10000.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S680x128.size a < S10000x128.size a
  hwx1_2 : ∀ i : grid1.Coords, EltTy.bits .f32 = 32 ∨ (Rect.unit (s := S10000x128) (fun a => cc1_transform_2 i a * S680x128.size a) (fun a => (Pipeline.Clip.of (cc1_transform_2 i a) (S680x128.size a) (S10000x128.size a)).extent (S680x128.size a)) fun a => Pipeline.Clip.inb (Pipeline.Clip.ok_of (hstart1_2 i a))).WholeWords (EltTy.packing .f32)
  hwxs1_2 : ∀ i : grid1.Coords, EltTy.bits .f32 = 32 ∨ (Rect.unit (s := S680x128) (fun _ => 0) (fun a => (Pipeline.Clip.of (cc1_transform_2 i a) (S680x128.size a) (S10000x128.size a)).extent (S680x128.size a)) fun a => (Nat.zero_add _).trans_le (Pipeline.Clip.extent_le (Pipeline.Clip.ok_of (hstart1_2 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S680x10000_S10000x128_S680x128_1_0_0_1_n_n : DotDims S680x10000 S10000x128 S680x128 where
  lhsContracting := [1]
  rhsContracting := [0]
  lhsNonContracting := [0]
  rhsNonContracting := [1]
  lhsBatch := []
  rhsBatch := []
  wf := dot_S680x10000_S10000x128_S680x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg1) S680x10000.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v1) S680x128.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Bits.Run.lean ====
/-
  The word-level kernel program's frame: its two kernel regions in order, from any memory with zero counters, at any
  float instance. The first region is followed exactly: the intermediate array it leaves is the second region's entry
  contents. Of the second region nothing is said about what its body leaves in the two windows whose last block is cut
  at the array's end (the adjacency block and the result block): the fetch of a cut block leaves the staging buffer's rows
  past the array's end at words nothing names, and the body's matrix product takes its whole left operand; the claim reads
  neither. An input array is never written, so the three argument arrays end holding what they held at launch.
-/
import proofs.«109493_g37048387895419_cont_8to1_b_82_7_alg».proof.Proof.Bits.XwRegion
import proofs.«109493_g37048387895419_cont_8to1_b_82_7_alg».proof.Proof.Bits.AdjData

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the two regions' entries -/

abbrev W0 : Dev nD → Valuation τ sig (Elt F) := fun c b => m (c, b)
abbrev VA : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (Xw.dat (VA m) c).arrAt w cfg0.N
theorem W1_arr (c : Dev nD) (w : Fin cfg0.W) :
    W1 m c (Proc.devRef .tc (Pipeline.arrRef spec0 w)) = (Xw.dat (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt F) ((c : Thread nD τ).loc b) := fun c b => W1 m c b
theorem hF0 (c : Dev nD) (w : Fin cfg0.W) : (Xw.dat (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- The arguments as the second region finds them are the launch memory's: the first region reads two of them through
    input windows and bypasses the third. -/
theorem W1_main_arg0 (c : Dev nD) : W1 m c (Proc.devRef .tc main_arg0) = m ((c : Thread nD τ).loc main_arg0) :=
  (W1_arr m c 0).trans (((Xw.dat (VA m) c).arrAt_in 0 rfl _).trans (Xw.A_eq (VA m) c 0))
theorem W1_main_arg2 (c : Dev nD) : W1 m c (Proc.devRef .tc main_arg2) = m ((c : Thread nD τ).loc main_arg2) :=
  (W1_arr m c 1).trans (((Xw.dat (VA m) c).arrAt_in 1 rfl _).trans (Xw.A_eq (VA m) c 1))
theorem W1_main_arg1 (c : Dev nD) : W1 m c (Proc.devRef .tc main_arg1) = m ((c : Thread nD τ).loc main_arg1) :=
  W1_of_ne m c main_arg1 (by decide)

/-! ## The second region's body obligation with the two cut windows not read back -/

/-- The windows of the second region whose staging contents the frame does not follow: the adjacency block's and the result's. -/
abbrev fgt1 : Fin 3 → Bool := fun | 0 => false | 1 => true | 2 => true | ⟨_ + 3, h⟩ => absurd h (Nat.not_lt.2 (Nat.le_add_left _ _))

/-- The body at any point, the two cut windows handed over and taken back at contents nothing names: the resident window's
    buffer holds the intermediate array and is left as found. -/
theorem body_obligation_fgt (V : (c : Dev nD) → (b : Ref sig .tc) → Buf (Elt F) ((c : Thread nD τ).loc b)) (c : Dev nD) :
    BodyObligationLoose (AdjData.dat (F := F) V c) (defs₀ (F := F)) Variants.none () Set.univ fgt1 := fun t => by
  rw [bigSep_W1, bigSep_W1]
  simp only
  rw [show (AdjData.dat V c).Φ t.succ = (AdjData.dat V c).Φ t.castSucc from rfl,
    show (AdjData.dat V c).owesAt () t.succ = (AdjData.dat V c).owesAt () t.castSucc from rfl]
  iintro ⟨HΦ, Ho, ⟨%d0, H0⟩, ⟨%X1, H1⟩, ⟨%X2, H2⟩⟩
  rw [AdjData.before_0 V c t d0]
  iapply (Adj.sound_kernel (F := F) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (AdjData.iblk V c 0 t) X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · rw [AdjData.after_0]; iexact H0
  isplitl [H1]; · iexists _; iexact H1
  iexists _; iexact H2

/-! ## The proof data family and the thread state -/

abbrev adm : (p : Fin 2) → (pcfgs (F := F) p).Adm := fun p => (cfgs p).toPCfg_adm
/-- The exact data of both pipelines, each at its region's entry contents, -/
def pdats : (p : Fin 2) → (c : Dev nD) → Dat τ (Elt F) Unit ℕ (UR sig nD τ) ℕ (Pipeline.pin (pcfgs (F := F)) adm p) c
  | ⟨0, _⟩ => fun c => Xw.dat (VA m) c
  | ⟨1, _⟩ => fun c => AdjData.dat (VB m) c
/-- and read as constraints: the first region's exactly, the second's saying nothing of its two cut windows. -/
def rdats : (p : Fin 2) → (c : Dev nD) → RDat τ (Elt F) Unit ℕ (UR sig nD τ) ℕ (Pipeline.pin (pcfgs (F := F)) adm p) c
  | ⟨0, _⟩ => fun c => (Xw.dat (VA m) c).toR
  | ⟨1, _⟩ => fun c => (AdjData.dat (VB m) c).toRForget fgt1
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A valuation holds the three arguments as launched. -/
def KeepsArgs (c : Dev nD) (Wf : Valuation τ sig (Elt F)) : Prop :=
  Wf (Proc.devRef .tc main_arg0) = m ((c : Thread nD τ).loc main_arg0)
  ∧ Wf (Proc.devRef .tc main_arg1) = m ((c : Thread nD τ).loc main_arg1)
  ∧ Wf (Proc.devRef .tc main_arg2) = m ((c : Thread nD τ).loc main_arg2)

/-- The last thread state: every unscoped buffer held at SOME valuation that has the arguments as launched. -/
abbrev Tₙ (c : Dev nD) : sProp 𝕄 :=
  iprop(∃ Wf : Valuation τ sig (Elt F), ⌜KeepsArgs m c Wf⌝ ∗ StableHlo.held (c : Thread nD τ) (Pipeline.ucRefs τ sig) Wf ∗ ∃ r, prngReg c r)

/-! ## The regions as segments -/

set_option backward.isDefEq.respectTransparency.types false in
/-- The first region, its exact record read relationally. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (Xw.body_obligation (VA m) c).loose.toR
  hwaits := Pipeline.RDat.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    rw [show (rdats m 0 c).arraysAt (Pipeline.pin (pcfgs (F := F)) adm 0).N = ((pdats m 0 c).arrays ((pdats m 0 c).arrAt · cfg0.N) : sProp 𝕄)
      from (Xw.dat (VA m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- The contents the second region's exit names for its three arrays, as one family. -/
def fam (c : Dev nD) (F0 : Buf (Elt F) ((cfg1.win 0).arr.view.loc (c : Thread nD τ))) (F1 : Buf (Elt F) ((cfg1.win 1).arr.view.loc (c : Thread nD τ)))
    (F2 : Buf (Elt F) ((cfg1.win 2).arr.view.loc (c : Thread nD τ))) : (w : Fin cfg1.W) → Buf (Elt F) ((cfg1.win w).arr.view.loc (c : Thread nD τ))
  | ⟨0, _⟩ => F0
  | ⟨1, _⟩ => F1
  | ⟨2, _⟩ => F2

set_option backward.isDefEq.respectTransparency.types false in
/-- The second region: entered from every unscoped buffer at `W1`; left at some valuation that has the arguments as launched. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation_fgt (VB m) c).toRForget
  hwaits := Pipeline.RDat.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    -- an input window's array is never written: after every write-back it holds its entry contents
    have hin0 : ∀ G, (rdats m 1 c).ArrAt 0 cfg1.N G → G = VB m c (Pipeline.arrRef spec1 0) := fun G h => by
      rw [RDat.ArrAt_in (rdats m 1 c) 0 rfl] at h; exact h
    have hin1 : ∀ G, (rdats m 1 c).ArrAt 1 cfg1.N G → G = VB m c (Pipeline.arrRef spec1 1) := fun G h => by
      rw [RDat.ArrAt_in (rdats m 1 c) 1 rfl] at h; exact h
    unfold Pipeline.RDat.arraysAt
    rw [bigSep_W1]
    iintro ⟨⟨⟨%F0, %h0, H0⟩, ⟨%F1, %h1, H1⟩, ⟨%F2, %h2, H2⟩⟩, HO, HY, Hrest⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (fun b => Pipeline.withArrays spec1 c (W1 m c) (fam c F0 F1 F2) b) (fam c F0 F1 F2)
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    have harr : ((pdats m 1 c).arrays (fam c F0 F1 F2) : sProp 𝕄)
        = iprop(((cfg1.win 0).arr.view.loc (c : Thread nD τ) ↦[(cfg1.win 0).arr.view.set]{(pdats m 1 c).share 0} F0)
          ∗ ((cfg1.win 1).arr.view.loc (c : Thread nD τ) ↦[(cfg1.win 1).arr.view.set]{(pdats m 1 c).share 1} F1)
          ∗ ((cfg1.win 2).arr.view.loc (c : Thread nD τ) ↦[(cfg1.win 2).arr.view.set]{(pdats m 1 c).share 2} F2)) := by
      unfold Pipeline.Dat.arrays; rw [bigSep_W1]; rfl
    imodintro
    isplitr [HO]
    · iexists (Pipeline.withArrays spec1 c (W1 m c) (fam c F0 F1 F2))
      isplitr
      · ipureintro
        refine ⟨?_, ?_, ?_⟩
        · exact (Pipeline.withArrays_of_ne spec1 c _ _ main_arg0 (by decide)).trans (W1_main_arg0 m c)
        · exact (Pipeline.withArrays_arr spec1 launch1.win.arr_inj c _ _ 1).trans ((hin1 F1 h1).trans (W1_main_arg1 m c))
        · exact (Pipeline.withArrays_of_ne spec1 c _ _ main_arg2 (by decide)).trans (W1_main_arg2 m c)
      isplitl [H0 H1 H2 Hrest]
      · iapply hjoin
        isplitl [H0 H1 H2]
        · rw [harr]; isplitl [H0]; · iexact H0
          isplitl [H1]; · iexact H1
          iexact H2
        iexact Hrest
      iexact HY
    unfold Pipeline.RDat.owesAt Pipeline.owesWithin
    icases HO with ⟨%W, -, HO⟩; iexists W; iexact HO

/-! ## @main as segments, and the launch -/

abbrev segs : List (Pipeline.RDat.Seg (pcfgs (F := F)) adm (rdats m) () defs₀ 𝒱₀ L lv) :=
  [ .region (reg0 m), .region (reg1 m) ]
theorem main_run (c : Dev nD) : main (F := F) c = Pipeline.RDat.Seg.run (segs m) := (main_chain c).trans (by chain_rfl)

set_option backward.isDefEq.respectTransparency.types false in
/-- From any memory with zero counters every weakly fair execution of @main terminates, nothing faulting, and the three
    argument arrays end holding what they held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨%Wf, %hW, Hh, -⟩, HSI⟩
      unfold StableHlo.held
      ihave Hr := (pointsTo_read_all (Pipeline.ucRefs τ sig) (fun b => (((c : Thread nD τ)).1, b)) Wf s') $$ [Hh HSI]
      · isplitl [Hh] <;> iassumption
      icases Hr with ⟨%h, HSI⟩
      imodintro
      isplitr
      · ipureintro
        exact ⟨(h _ (mem_uc main_arg0 (by decide))).trans hW.1, (h _ (mem_uc main_arg1 (by decide))).trans hW.2.1,
          (h _ (mem_uc main_arg2 (by decide))).trans hW.2.2⟩
      · iexact HSI)
    (hQ := fun s h c => h c)

end Cert.Kernel.Run

end
-- ==== Proof.Ideal.XwRegion.lean ====
/-
  The first kernel region: one grid point, the whole feature array `x` and the whole weight array `w` staged,
  their product `x · w` stored over the whole result block and written back to the intermediate array.
  Stated at a parameter `V`, the buffers' contents when the region is entered, and at any float instance:
  the body only loads, applies one pure payload and stores.
-/
import proofs.«109493_g37048387895419_cont_8to1_b_82_7_alg».proof.Proof.Gen.KernelIdeal.Launch
import proofs.«109493_g37048387895419_cont_8to1_b_82_7_alg».proof.Proof.Gen.KernelIdeal.Skeleton
import proofs.«109493_g37048387895419_cont_8to1_b_82_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Xw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point, read off its array as the region finds it: the whole array. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block when the body runs: it was fetched at this point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The body's three accesses: each is its buffer whole. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0

/-- The result's staging buffer after the body: its one store, the product of what the two loads read. -/
def out (x0 : Vec F S10000x128 .f32) (x1 : Vec F S128x128 .f32) : Vec F S10000x128 .f32 :=
  View.canon [⟨rX, k0_pay1 (View.ld x0 rX) (View.ld x1 rW)⟩]

/-- The one store covers the buffer. -/
theorem cover (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y

theorem zero_off : (![0, 0] : Fin 2 → Nat) = fun _ => 0 := funext fun a => by fin_cases a <;> rfl

/-- One whole store of whole loads: the buffer holds the product of the two loaded arrays. -/
theorem out_eq (x0 : Vec F S10000x128 .f32) (x1 : Vec F S128x128 .f32) : out x0 x1 = k0_pay1 x0 x1 := by
  unfold out
  rw [View.canon_unit_zero zero_off, View.ld_unit_zero zero_off, View.ld_unit_zero zero_off]

set_option maxHeartbeats 1000000 in
/-- The body on whole staging memrefs: the inputs' at `x0`, `x1`, the result's at anything, runs to the inputs' as they
    were and the result's at `out x0 x1`. -/
theorem sound_kernel (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out x0 x1)) -∗ K ⟨⟩))
      ⊢ wp frame (wpE (defs₀ (F := F)) Variants.none c none) E (cc0__xw_kernel arg0 harg0 arg1 harg1 arg2 harg2) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data and the body obligation -/

/-- The proof data of the first pipeline on core `c`: the arrays as the region finds them; after the body each input's
    buffer at its block and the result's at the product of the two; the invariant holds the scoped rest and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at the point: the inputs' memrefs hold their blocks, so `sound_kernel` applies; the invariant and the core's
    dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem body_obligation (c : Dev nD) : BodyObligation (dat (F := F) V c) (defs₀ (F := F)) Variants.none () Set.univ := fun t => by
  rw [bigSep_W0, bigSep_W0]
  exact sound_body V c t

end Cert.KernelIdeal.Xw

end
-- ==== Proof.Ideal.AdjBody.lean ====
/-
  The second kernel's body, at any grid point and any float instance: the adjacency row-block and the whole array of
  projected features are loaded, their product's positive part is stored over the whole result block. The body reads
  nothing of the grid point.
-/
import proofs.«109493_g37048387895419_cont_8to1_b_82_7_alg».proof.Proof.Gen.KernelIdeal.Launch
import proofs.«109493_g37048387895419_cont_8to1_b_82_7_alg».proof.Proof.Gen.KernelIdeal.Skeleton
import proofs.«109493_g37048387895419_cont_8to1_b_82_7_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Adj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's three accesses: each is its buffer whole. -/
abbrev rP : Rect S10000x128 := Rect.unit (s := S10000x128) ![0, 0] S10000x128.size inb_S10000x128_S10000x128_0_0
abbrev rA : Rect S680x10000 := Rect.unit (s := S680x10000) ![0, 0] S680x10000.size inb_S680x10000_S680x10000_0_0
abbrev rO : Rect S680x128 := Rect.unit (s := S680x128) ![0, 0] S680x128.size inb_S680x128_S680x128_0_0

/-- The result's staging buffer after the body, from the projected features `x1` and the adjacency block `x2`. -/
def out (x1 : Vec F S10000x128 .f32) (x2 : Vec F S680x10000 .f32) : Vec F S680x128 .f32 :=
  View.canon [⟨rO, k1_pay1 (View.ld x2 rA) (View.ld x1 rP)⟩]

/-- The one store covers the buffer. -/
theorem cover (p0 : Vec F S680x128 .f32) (y : S680x128.Idx) :
    ∃ pc ∈ ([⟨rO, p0⟩] : List (View.Piece (Elt F) S680x128 .f32)), y ∈ pc.1.set :=
  View.cover_of_tiled [⟨rO, p0⟩] S680x128.size (by rfl) y

theorem zero_off : (![0, 0] : Fin 2 → Nat) = fun _ => 0 := funext fun a => by fin_cases a <;> rfl

/-- One whole store of whole loads: the buffer holds the payload of the two loaded arrays. -/
theorem out_eq (x1 : Vec F S10000x128 .f32) (x2 : Vec F S680x10000 .f32) : out x1 x2 = k1_pay1 x2 x1 := by
  unfold out
  rw [View.canon_unit_zero zero_off, View.ld_unit_zero zero_off, View.ld_unit_zero zero_off]

set_option maxHeartbeats 1000000 in
/-- The body on whole staging memrefs: the projected features' at `x1`, the adjacency block's at `x2`, the result's at
    anything, runs to the inputs' as they were and the result's at `out x1 x2`. -/
theorem sound_kernel (c : Dev nD) (E : Set ℕ) (i : grid1.Coords) (arg1 : Memref sig .tc .vmem S10000x128 .f32) (harg1 : arg1.IsWhole)
    (arg2 : Memref sig .tc .vmem S680x10000 .f32) (harg2 : arg2.IsWhole) (arg3 : Memref sig .tc .vmem S680x128 .f32) (harg3 : arg3.IsWhole)
    (x1 : Vec F S10000x128 .f32) (x2 : Vec F S680x10000 .f32) (K : PUnit → sProp 𝕄) :
    iprop(owns (c : Thread nD τ) arg1 fullShare x1 ∗ owns (c : Thread nD τ) arg2 fullShare x2 ∗ (∃ d, owns (c : Thread nD τ) arg3 fullShare d)
        ∗ (iprop(owns (c : Thread nD τ) arg1 fullShare x1 ∗ owns (c : Thread nD τ) arg2 fullShare x2 ∗ owns (c : Thread nD τ) arg3 fullShare (out x1 x2)) -∗ K ⟨⟩))
      ⊢ wp frame (wpE (defs₀ (F := F)) Variants.none c none) E (cc1__adj_kernel i arg1 harg1 arg2 harg2 arg3 harg3) K := by
  simp only [cc1__adj_kernel_eq_skeleton]; unfold cc1__adj_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

end Cert.KernelIdeal.Adj

end
-- ==== Proof.Ideal.AdjData.lean ====
/-
  The second kernel region's proof data, at a parameter `V` (the buffers' contents when the region is entered) and at
  any float instance. Fifteen points; the projected features stay resident (fetched at the first point only); the
  adjacency matrix arrives in row-blocks of 680 rows, the last of which overhangs the array by 200 rows: that fetch lands
  the 480 rows inside the array and leaves the rest of the buffer at words nothing names. After the body the adjacency
  buffer holds its block on the rows inside the array (the filler below stands for the rest), and the result buffer the
  body's product of that.
-/
import proofs.«109493_g37048387895419_cont_8to1_b_82_7_alg».proof.Proof.Ideal.AdjBody

set_option maxRecDepth 16384

noncomputable section

namespace Cert.KernelIdeal.AdjData

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block at point `t` filled out to the staging buffer's 680 rows: the block on the rows inside the array,
    the zero word past the array's end. -/
def ablk (c : Dev nD) (t : Fin cfg1.N) : S680x10000.Idx → Elt F .f32 :=
  win1_1.fill (grid1.coords t) (fun _ => Scalar.ofBits .f32 0#32) (iblk V c 1 t)

/-- The resident window's staging buffer holds the whole array of projected features at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The proof data of the second pipeline on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => ablk V c t
    | ⟨2, _⟩ => Adj.out (iblk V c 0 t) (ablk V c t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = ablk V c t := by dsimp only [dat]
theorem after_2 (c : Dev nD) (t : Fin cfg1.N) : (dat V c).after 2 t = Adj.out (iblk V c 0 t) (ablk V c t) := by dsimp only [dat]

theorem before_0 (c : Dev nD) (t : Fin cfg1.N) (d) : (dat V c).before 0 t d = iblk V c 0 t :=
  before_0_of V (dat V c) (A_eq V c 0) (after_0 V c) t d

/-- The adjacency window is fetched at every point: its buffer holds the block on the rows inside the array and whatever it
    held, `d`, past the array's end. -/
theorem before_1 (c : Dev nD) (t : Fin cfg1.N) (d) :
    (dat V c).before 1 t d = win1_1.fill (grid1.coords t) d (iblk V c 1 t) := by
  unfold Dat.before; rw [if_pos (fetch1_1 t)]; rfl

end Cert.KernelIdeal.AdjData

end
-- ==== Proof.Ideal.Payload.lean ====
/-
  The two kernel bodies' arithmetic read at one entry, over the extended reals: the first body's product
  of a feature row with a weight column, and the second body's product of an adjacency row with a column of
  the projected features followed by the positive part. A matrix product into a zero accumulator is the plain
  sum of the products over the contracted axis.
-/
import proofs.«109493_g37048387895419_cont_8to1_b_82_7_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ### The operand indices of the features-by-weights product

At an output entry and a contraction index, the left operand is read at (output row, contraction coordinate) and the
right operand at (contraction coordinate, output column). Each of the four coordinates is stated on its own. -/

/-- Left operand of the features-by-weights product, row axis: the output entry's row. -/
theorem xw_lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl

/-- Left operand of the features-by-weights product, column axis: the contraction coordinate. -/
theorem xw_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q

/-- Right operand of the features-by-weights product, row axis: the contraction coordinate. -/
theorem xw_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q

/-- Right operand of the features-by-weights product, column axis: the output entry's column. -/
theorem xw_rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The features-by-weights product into the zero accumulator, read at row `a`, column `b`: the sum over the contracted coordinate `k` of
    the left operand at (a, k) times the right operand at (k, b). -/
theorem xw_sum (L : Vec Ideal S10000x128 .f32) (R : Vec Ideal S128x128 .f32) (a : Fin 10000) (b : Fin 128) :
    FloatOps.matmul (φ₁ := .f32) (φ₂ := .f32) dot_S10000x128_S128x128_S10000x128_1_0_0_1_n_n none L R (constant (F := Ideal) S10000x128 .f32 0x00000000#32) (ix2 a b)
      = ∑ k : Fin 128, L (ix2 a k) * R (ix2 k b) := by
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 a b) ((ValueIdx.contrEquiv1 dot_S10000x128_S128x128_S10000x128_1_0_0_1_n_n 128 rfl rfl).symm k) = ix2 a k := funext fun d => Fin.ext (by
    match d with
    | ⟨0, _⟩ => exact xw_lhs_row _ _
    | ⟨1, _⟩ => exact (xw_lhs_col _ _).trans hk)
  have er : dot_S10000x128_S128x128_S10000x128_1_0_0_1_n_n.rhsIdx (ix2 a b) ((ValueIdx.contrEquiv1 dot_S10000x128_S128x128_S10000x128_1_0_0_1_n_n 128 rfl rfl).symm k) = ix2 k b := funext fun d => Fin.ext (by
    match d with
    | ⟨0, _⟩ => exact (xw_rhs_row _ _).trans hk
    | ⟨1, _⟩ => exact xw_rhs_col _ _)
  rw [el, er]

/-! ### The operand indices of the adjacency-block-by-projection product

At an output entry and a contraction index, the left operand is read at (output row, contraction coordinate) and the
right operand at (contraction coordinate, output column). Each of the four coordinates is stated on its own. -/

/-- Left operand of the adjacency-block-by-projection product, row axis: the output entry's row. -/
theorem adj_lhs_row (i : S680x128.Idx) (q : dot_S680x10000_S10000x128_S680x128_1_0_0_1_n_n.contr.Idx) :
    (dot_S680x10000_S10000x128_S680x128_1_0_0_1_n_n.lhsIdx i q 0).val = (i 0).val := by
  unfold DotDims.lhsIdx
  rw [dif_neg (show ¬(0 : Fin S680x10000.rank) ∈ dot_S680x10000_S10000x128_S680x128_1_0_0_1_n_n.lhsBatch by decide), dif_pos (show (0 : Fin S680x10000.rank) ∈ dot_S680x10000_S10000x128_S680x128_1_0_0_1_n_n.lhsNonContracting by decide)]
  rfl

/-- Left operand of the adjacency-block-by-projection product, column axis: the contraction coordinate. -/
theorem adj_lhs_col (i : S680x128.Idx) (q : dot_S680x10000_S10000x128_S680x128_1_0_0_1_n_n.contr.Idx) :
    (dot_S680x10000_S10000x128_S680x128_1_0_0_1_n_n.lhsIdx i q 1).val = (q ⟨0, by decide⟩).val :=
  dot_S680x10000_S10000x128_S680x128_1_0_0_1_n_n.lhsIdx_val_of_single rfl i q

/-- Right operand of the adjacency-block-by-projection product, row axis: the contraction coordinate. -/
theorem adj_rhs_row (i : S680x128.Idx) (q : dot_S680x10000_S10000x128_S680x128_1_0_0_1_n_n.contr.Idx) :
    (dot_S680x10000_S10000x128_S680x128_1_0_0_1_n_n.rhsIdx i q 0).val = (q ⟨0, by decide⟩).val :=
  dot_S680x10000_S10000x128_S680x128_1_0_0_1_n_n.rhsIdx_val_of_single rfl i q

/-- Right operand of the adjacency-block-by-projection product, column axis: the output entry's column. -/
theorem adj_rhs_col (i : S680x128.Idx) (q : dot_S680x10000_S10000x128_S680x128_1_0_0_1_n_n.contr.Idx) :
    (dot_S680x10000_S10000x128_S680x128_1_0_0_1_n_n.rhsIdx i q 1).val = (i 1).val := by
  unfold DotDims.rhsIdx
  rw [dif_neg (show ¬(1 : Fin S10000x128.rank) ∈ dot_S680x10000_S10000x128_S680x128_1_0_0_1_n_n.rhsBatch by decide), dif_pos (show (1 : Fin S10000x128.rank) ∈ dot_S680x10000_S10000x128_S680x128_1_0_0_1_n_n.rhsNonContracting by decide)]
  rfl

/-- The adjacency-block-by-projection product into the zero accumulator, read at row `a`, column `b`: the sum over the contracted coordinate `k` of
    the left operand at (a, k) times the right operand at (k, b). -/
theorem adj_sum (L : Vec Ideal S680x10000 .f32) (R : Vec Ideal S10000x128 .f32) (a : Fin 680) (b : Fin 128) :
    FloatOps.matmul (φ₁ := .f32) (φ₂ := .f32) dot_S680x10000_S10000x128_S680x128_1_0_0_1_n_n none L R (constant (F := Ideal) S680x128 .f32 0x00000000#32) (ix2 a b)
      = ∑ k : Fin 10000, L (ix2 a k) * R (ix2 k b) := by
  rw [Ideal.matmul_constant_zero_apply, ← Equiv.sum_comp (ValueIdx.contrEquiv1 dot_S680x10000_S10000x128_S680x128_1_0_0_1_n_n 10000 rfl rfl).symm]
  refine Finset.sum_congr rfl fun k _ => ?_
  have hk := ValueIdx.contrEquiv1_symm_val dot_S680x10000_S10000x128_S680x128_1_0_0_1_n_n 10000 rfl rfl k
  have el : dot_S680x10000_S10000x128_S680x128_1_0_0_1_n_n.lhsIdx (ix2 a b) ((ValueIdx.contrEquiv1 dot_S680x10000_S10000x128_S680x128_1_0_0_1_n_n 10000 rfl rfl).symm k) = ix2 a k := funext fun d => Fin.ext (by
    match d with
    | ⟨0, _⟩ => exact adj_lhs_row _ _
    | ⟨1, _⟩ => exact (adj_lhs_col _ _).trans hk)
  have er : dot_S680x10000_S10000x128_S680x128_1_0_0_1_n_n.rhsIdx (ix2 a b) ((ValueIdx.contrEquiv1 dot_S680x10000_S10000x128_S680x128_1_0_0_1_n_n 10000 rfl rfl).symm k) = ix2 k b := funext fun d => Fin.ext (by
    match d with
    | ⟨0, _⟩ => exact (adj_rhs_row _ _).trans hk
    | ⟨1, _⟩ => exact adj_rhs_col _ _)
  rw [el, er]

/-- The first body's payload at row `l`, column `c`: row `l` of the features against column `c` of the weights. -/
theorem pay0_apply (x : Vec Ideal S10000x128 .f32) (w : Vec Ideal S128x128 .f32) (l : Fin 10000) (c : Fin 128) :
    k0_pay1 (F := Ideal) x w (ix2 l c) = ∑ k : Fin 128, x (ix2 l k) * w (ix2 k c) :=
  xw_sum x w l c

/-- The second body's payload at row `r` of the block, column `c`: row `r` of the adjacency block against column `c`
    of the projected features, then the positive part. Only row `r` of the block is read. -/
theorem pay1_apply (A : Vec Ideal S680x10000 .f32) (X : Vec Ideal S10000x128 .f32) (r : Fin 680) (c : Fin 128) :
    k1_pay1 (F := Ideal) A X (ix2 r c) = max (∑ l : Fin 10000, A (ix2 r l) * X (ix2 l c)) 0 := by
  -- a cast of a shape to itself changes nothing, so the right operand of the product is `X` itself
  have hcast : shapeCast S10000x128 X shapeCasts_S10000x128_S10000x128 = X := shapeCast_self X _
  -- the payload is the lane-wise maximum of the product and the zero splat
  have hmax : k1_pay1 (F := Ideal) A X (ix2 r c)
      = max (FloatOps.matmul (φ₁ := .f32) (φ₂ := .f32) dot_S680x10000_S10000x128_S680x128_1_0_0_1_n_n none A (shapeCast S10000x128 X shapeCasts_S10000x128_S10000x128)
              (constant (F := Ideal) S680x128 .f32 0x00000000#32) (ix2 r c))
            (Ideal.ofBits .f32 0x00000000#32) := rfl
  rw [hmax, hcast, adj_sum, Ideal.ofBits_zero_f32]

end Cert.KernelIdeal.Payload

end
-- ==== Proof.Ideal.AdjExact.lean ====
/-
  The second kernel's body obligation over the extended reals, with the adjacency window's last block cut at the array's
  end. The rows of the body's result that lie inside the array do not depend on what the adjacency buffer holds past the
  array's end: row `r` of a matrix product reads row `r` of the left factor only. So the result buffer agrees, on the part
  the write-back moves, with the product of the block filled out by any filler.
-/
import proofs.«109493_g37048387895419_cont_8to1_b_82_7_alg».proof.Proof.Ideal.AdjData
import proofs.«109493_g37048387895419_cont_8to1_b_82_7_alg».proof.Proof.Ideal.Payload

set_option maxRecDepth 16384

noncomputable section

namespace Cert.KernelIdeal.AdjExact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-- At every point the adjacency window and the result window cut the row axis alike, and the adjacency window's column
    axis is not cut. -/
theorem xsize_facts : ∀ t : Fin cfg1.N, win1_1.xsize (grid1.coords t) 0 = win1_2.xsize (grid1.coords t) 0
    ∧ win1_1.xsize (grid1.coords t) 1 = 10000 :=
  (by decide +kernel : ∀ t : Fin grid1.N, win1_1.xsize (grid1.coords t) 0 = win1_2.xsize (grid1.coords t) 0
    ∧ win1_1.xsize (grid1.coords t) 1 = 10000)

/-- The result's rows inside the array do not depend on the filler of the adjacency buffer past the array's end. -/
theorem cut_out_indep (t : Fin cfg1.N) (X : Vec Ideal S10000x128 .f32) (B : (win1_1.xblock (grid1.coords t)).Idx → Elt Ideal .f32)
    (d d' : S680x10000.Idx → Elt Ideal .f32) :
    win1_2.cut (grid1.coords t) (Adj.out X (win1_1.fill (grid1.coords t) d B))
      = win1_2.cut (grid1.coords t) (Adj.out X (win1_1.fill (grid1.coords t) d' B)) := by
  funext j
  show Adj.out X (win1_1.fill (grid1.coords t) d B) (win1_2.xinj (grid1.coords t) j)
    = Adj.out X (win1_1.fill (grid1.coords t) d' B) (win1_2.xinj (grid1.coords t) j)
  rw [Adj.out_eq, Adj.out_eq]
  -- the entry's row `r` lies inside the array: it is below the cut size of the result window's row axis
  obtain ⟨r, q, hrq⟩ : ∃ (r : Fin 680) (q : Fin 128), win1_2.xinj (grid1.coords t) j = ix2 r q :=
    ⟨_, _, eq_ix2 (n0 := 680) (n1 := 128) (win1_2.xinj (grid1.coords t) j)⟩
  have hr : r.val = (j 0).val := (congrArg (fun f : S680x128.Idx => (f 0).val) hrq).symm
  rw [hrq, Payload.pay1_apply, Payload.pay1_apply]
  -- row `r` of the product reads row `r` of the adjacency buffer only, and that row was moved by the fetch
  refine congrArg (fun s => max s 0) (Finset.sum_congr rfl fun l _ => congrArg (· * X (ix2 l q)) ?_)
  have hm : win1_1.moved (grid1.coords t) (ix2 r l) = true := (win1_1.moved_iff _ _).mpr fun a => by
    match a with
    | ⟨0, _⟩ =>
      show r.val < win1_1.xsize (grid1.coords t) 0
      rw [(xsize_facts t).1, hr]; exact (j 0).isLt
    | ⟨1, _⟩ =>
      show l.val < win1_1.xsize (grid1.coords t) 1
      rw [(xsize_facts t).2]; exact l.isLt
  unfold Window.fill
  rw [dif_pos hm, dif_pos hm]

/-- The library's body obligation in the form that states a cut window's buffer on the moved part only. -/
theorem body_obligation (c : Dev nD) :
    BodyObligationLoose (AdjData.dat (F := Ideal) V c) (defs₀ (F := Ideal)) Variants.none () Set.univ := fun t => by
  rw [bigSep_W1, bigSep_W1]
  -- no point is idle; the projected features' window is stated exactly, the adjacency and result windows on the
  -- rows inside the array only
  simp only
  rw [show (AdjData.dat V c).Φ t.succ = (AdjData.dat V c).Φ t.castSucc from rfl,
    show (AdjData.dat V c).owesAt () t.succ = (AdjData.dat V c).owesAt () t.castSucc from rfl]
  iintro ⟨HΦ, Ho, ⟨%d0, H0⟩, ⟨%d1, H1⟩, ⟨%d2, H2⟩⟩
  rw [AdjData.before_0 V c t d0, AdjData.before_1 V c t d1]
  iapply (Adj.sound_kernel (F := Ideal) c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (AdjData.iblk V c 0 t) (win1_1.fill (grid1.coords t) d1 (AdjData.iblk V c 1 t)) _)
  isplitl [H0]
  · iexact H0
  isplitl [H1]
  · iexact H1
  isplitl [H2]
  · iexists _; iexact H2
  iintro ⟨H0, H1, H2⟩
  isplitl [HΦ]; · iexact HΦ
  isplitl [Ho]; · iexact Ho
  isplitl [H0]
  · rw [AdjData.after_0 V c t]; iexact H0
  isplitl [H1]
  · -- the adjacency buffer: its block on the rows inside the array, the filler it arrived with elsewhere
    iexists d1
    change _ ⊢ owns (c : Thread nD τ) (st1_1 t) fullShare
      (win1_1.fill (grid1.coords t) d1 (win1_1.cut (grid1.coords t) ((AdjData.dat V c).after 1 t)))
    rw [AdjData.after_1 V c t,
      show win1_1.cut (grid1.coords t) (AdjData.ablk V c t) = AdjData.iblk V c 1 t from win1_1.cut_fill _ _ _]
  · -- the result buffer: on the rows inside the array it is the product of the block whatever filled it out
    iexists Adj.out (AdjData.iblk V c 0 t) (win1_1.fill (grid1.coords t) d1 (AdjData.iblk V c 1 t))
    change _ ⊢ owns (c : Thread nD τ) (st1_2 t) fullShare
      (win1_2.fill (grid1.coords t) (Adj.out (AdjData.iblk V c 0 t) (win1_1.fill (grid1.coords t) d1 (AdjData.iblk V c 1 t)))
        (win1_2.cut (grid1.coords t) ((AdjData.dat V c).after 2 t)))
    rw [AdjData.after_2 V c t, win1_2.fill_congr_cut (grid1.coords t)
      (show win1_2.cut (grid1.coords t) (Adj.out (AdjData.iblk V c 0 t) (win1_1.fill (grid1.coords t) d1 (AdjData.iblk V c 1 t)))
          = win1_2.cut (grid1.coords t) (Adj.out (AdjData.iblk V c 0 t) (AdjData.ablk V c t)) from
        cut_out_indep t (AdjData.iblk V c 0 t) (AdjData.iblk V c 1 t) d1 _)]

end Cert.KernelIdeal.AdjExact

end
-- ==== Proof.Ideal.Run.lean ====
/-
  The idealized kernel program's run over the extended reals: its two kernel regions in order, from any memory with zero
  counters. Between the regions every unscoped buffer is held whole at a named valuation: the launch memory; then the
  first region's arrays at what its one write-back leaves; then the second region's at what its fifteen leave. Every weakly
  fair execution terminates, and every unscoped buffer ends at the last valuation.
-/
import proofs.«109493_g37048387895419_cont_8to1_b_82_7_alg».proof.Proof.Ideal.XwRegion
import proofs.«109493_g37048387895419_cont_8to1_b_82_7_alg».proof.Proof.Ideal.AdjExact

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each boundary -/

/-- Core `c`'s buffers at launch: the first region's entry. -/
abbrev W0 : Dev nD → Valuation τ sig (Elt Ideal) := fun c b => m (c, b)
abbrev VA : (c : Dev nD) → (b : Ref sig .tc) → Buf (Elt Ideal) ((c : Thread nD τ).loc b) := fun c b => W0 m c b
/-- After the first region: its arrays at what the pipeline leaves, every other buffer as entered. The second region's entry. -/
def W1 (c : Dev nD) : Valuation τ sig (Elt Ideal) :=
  Pipeline.withArrays spec0 c (W0 m c) fun w => (Xw.dat (VA m) c).arrAt w cfg0.N
theorem W1_arr (c : Dev nD) (w : Fin cfg0.W) :
    W1 m c (Proc.devRef .tc (Pipeline.arrRef spec0 w)) = (Xw.dat (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VB : (c : Dev nD) → (b : Ref sig .tc) → Buf (Elt Ideal) ((c : Thread nD τ).loc b) := fun c b => W1 m c b
theorem hF0 (c : Dev nD) (w : Fin cfg0.W) : (Xw.dat (VA m) c).arrAt w cfg0.N = VB m c (Pipeline.arrRef spec0 w) :=
  (W1_arr m c w).symm
theorem hrest0 (c : Dev nD) : ∀ b, b ∉ Finset.univ.image (Pipeline.arrRef spec0) → VB m c b = VA m c b :=
  fun b hb => W1_of_ne m c b fun w e => hb (Finset.mem_image.mpr ⟨w, Finset.mem_univ _, e⟩)

/-- After the second region. -/
def W2 (c : Dev nD) : Valuation τ sig (Elt Ideal) :=
  Pipeline.withArrays spec1 c (W1 m c) fun w => (AdjData.dat (VB m) c).arrAt w cfg1.N
theorem W2_arr (c : Dev nD) (w : Fin cfg1.W) :
    W2 m c (Proc.devRef .tc (Pipeline.arrRef spec1 w)) = (AdjData.dat (VB m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev VC : (c : Dev nD) → (b : Ref sig .tc) → Buf (Elt Ideal) ((c : Thread nD τ).loc b) := fun c b => W2 m c b
theorem hF1 (c : Dev nD) (w : Fin cfg1.W) : (AdjData.dat (VB m) c).arrAt w cfg1.N = VC m c (Pipeline.arrRef spec1 w) :=
  (W2_arr m c w).symm
theorem hrest1 (c : Dev nD) : ∀ b, b ∉ Finset.univ.image (Pipeline.arrRef spec1) → VC m c b = VB m c b :=
  fun b hb => W2_of_ne m c b fun w e => hb (Finset.mem_image.mpr ⟨w, Finset.mem_univ _, e⟩)

/-! ## The proof data family and the thread state -/

abbrev adm : (p : Fin 2) → (pcfgs (F := Ideal) p).Adm := fun p => (cfgs p).toPCfg_adm
/-- Every pipeline's proof data, each at its region's entry contents: a literal match on the pipeline. -/
def pdats : (p : Fin 2) → (c : Dev nD) → Dat τ (Elt Ideal) Unit ℕ (UR sig nD τ) ℕ (Pipeline.pin (pcfgs (F := Ideal)) adm p) c
  | ⟨0, _⟩ => fun c => Xw.dat (VA m) c
  | ⟨1, _⟩ => fun c => AdjData.dat (VB m) c
abbrev 𝒱₀ : Variants := Variants.none
abbrev L : GSem nD τ sig → Finset Unit := fun _ => ∅
abbrev lv : GSem nD τ sig → Unit → ℕ := fun _ _ => 0
/-- What rides beside the buffers through both regions: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first region: entered from every unscoped buffer at the launch contents, left at `W1`. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Xw.body_obligation (VA m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W1`, left at `W2`. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := AdjExact.body_obligation (VB m) c
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .region (reg0 m), .region (reg1 m) ]
theorem main_run (c : Dev nD) : main (F := Ideal) c = Pipeline.Seg.run (segs m) := (main_chain c).trans (by chain_rfl)

set_option backward.isDefEq.respectTransparency.types false in
/-- From any memory with zero counters every weakly fair execution of @main terminates, nothing faulting, and every
    unscoped buffer ends at the last valuation. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

end Cert.KernelIdeal.Run

end
-- ==== Proof.Spec.lean ====
/-
  The result both programs compute, as one function of the three argument arrays over the extended
  reals: out[r, c] = max (∑ l, adj[r, l] · (∑ k, x[l, k] · w[k, c])) 0 — the adjacency matrix times the
  projected features, then the positive part. Nothing here mentions a program.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The three argument shapes and the result's. -/
abbrev SX : Shape := ⟨2, ![10000, 128]⟩
abbrev SA : Shape := ⟨2, ![10000, 10000]⟩
abbrev SW : Shape := ⟨2, ![128, 128]⟩

/-- Every entry of the array is a real number (neither infinity). -/
def AllReal {S : Shape} (v : S.Idx → EReal) : Prop := ∀ i, ∃ r : ℝ, v i = (r : EReal)

/-- The projected features: row `l` of `x` against column `c` of `w`. -/
def proj (x : SX.Idx → EReal) (w : SW.Idx → EReal) (l : Fin 10000) (c : Fin 128) : EReal :=
  ∑ k : Fin 128, x (ix2 l k) * w (ix2 k c)

/-- One entry of the result: row `r` of `adj` against column `c` of the projected features, then the positive part. -/
def convAt (x : SX.Idx → EReal) (adj : SA.Idx → EReal) (w : SW.Idx → EReal) (r : Fin 10000) (c : Fin 128) : EReal :=
  max (∑ l : Fin 10000, adj (ix2 r l) * proj x w l c) 0

/-- The whole result array. -/
def graphConv (x : SX.Idx → EReal) (adj : SA.Idx → EReal) (w : SW.Idx → EReal) : SX.Idx → EReal :=
  fun i => convAt x adj w (i 0) (i 1)

end Cert.Spec

end
-- ==== Proof.Ideal.XwFinal.lean ====
/-
  The intermediate array after the first region, over the extended reals: the one point writes back the whole block, so
  the array holds the projected features, row `l` of `x` against column `c` of `w`.
-/
import proofs.«109493_g37048387895419_cont_8to1_b_82_7_alg».proof.Proof.Ideal.XwRegion
import proofs.«109493_g37048387895419_cont_8to1_b_82_7_alg».proof.Proof.Ideal.Payload
import proofs.«109493_g37048387895419_cont_8to1_b_82_7_alg».proof.Proof.Spec

set_option maxRecDepth 16384

noncomputable section

namespace Cert.KernelIdeal.XwFinal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

/-- The projected features as one function of the two argument arrays the region finds: entry (l, c) is row `l` of
    the features against column `c` of the weights. -/
abbrev projOf (x : S10000x128.Idx → EReal) (w : S128x128.Idx → EReal) : S10000x128.Idx → EReal :=
  fun i => Cert.Spec.proj x w (i 0) (i 1)

/-- The feature window's block at the one point is the whole feature array: block index 0 on both axes, so a block
    coordinate `y` sits at `0 · extent + y` in the array. -/
theorem xblock_eq (c : Dev nD) (t : Fin cfg0.N) :
    (Xw.iblk V c 0 t : S10000x128.Idx → EReal) = (V c main_arg0 : S10000x128.Idx → EReal) := by
  funext y
  show V c main_arg0 (((cfg0.win 0).blk t).view.emb y) = V c main_arg0 y
  refine congrArg _ (funext fun a => Fin.ext ?_)
  match a with
  | ⟨0, _⟩ => show 0 * 10000 + 1 * (y 0).val = (y 0).val; omega
  | ⟨1, _⟩ => show 0 * 128 + 1 * (y 1).val = (y 1).val; omega

/-- Likewise the weight window's block is the whole weight array. -/
theorem wblock_eq (c : Dev nD) (t : Fin cfg0.N) :
    (Xw.iblk V c 1 t : S128x128.Idx → EReal) = (V c main_arg2 : S128x128.Idx → EReal) := by
  funext y
  show V c main_arg2 (((cfg0.win 1).blk t).view.emb y) = V c main_arg2 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- The product of the two whole arrays is the projected features, entry by entry. -/
theorem pay_eq_projOf (x : Vec Ideal S10000x128 .f32) (w : Vec Ideal S128x128 .f32) :
    (k0_pay1 (F := Ideal) x w : S10000x128.Idx → EReal) = projOf x w := by
  funext i
  obtain ⟨p, q, rfl⟩ : ∃ (p : Fin 10000) (q : Fin 128), i = ix2 p q := ⟨i 0, i 1, eq_ix2 i⟩
  exact Payload.pay0_apply x w p q

/-- What the one point writes back is the result window's block of the projected features. -/
theorem flushed_eq (c : Dev nD) (t : Fin cfg0.N) :
    (Xw.dat (F := Ideal) V c).flushed 2 t
      = ((cfg0.win 2).blk t).view.read (Elt Ideal) (projOf (V c main_arg0) (V c main_arg2)) := by
  show (cfg0.win 2).cut (grid0.coords t) ((Xw.dat (F := Ideal) V c).after 2 t) = _
  rw [Xw.after_2, Xw.out_eq]
  have e : (k0_pay1 (F := Ideal) (Xw.iblk V c 0 t) (Xw.iblk V c 1 t) : S10000x128.Idx → EReal)
      = projOf (V c main_arg0) (V c main_arg2) := by
    rw [pay_eq_projOf]
    exact congrArg₂ projOf (xblock_eq V c t) (wblock_eq V c t)
  funext j
  show k0_pay1 (F := Ideal) (Xw.iblk V c 0 t) (Xw.iblk V c 1 t) ((cfg0.win 2).xinj (grid0.coords t) j)
      = projOf (V c main_arg0) (V c main_arg2) (((cfg0.win 2).blk t).view.emb j)
  rw [e]
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- An index of the intermediate array lies in the point's block iff each coordinate lies in the block's range. -/
theorem mem_blk (t : Fin cfg0.N) (i : S10000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array: every index is covered by the one point's write-back. -/
theorem covered (i : S10000x128.Idx) :
    ∃ t : Fin cfg0.N, (cfg0.win 2).flush t = true ∧ i ∈ ((cfg0.win 2).blk t).view.set := by
  refine ⟨t0_0, flush0_2 t0_0, ?_⟩
  rw [mem_blk]
  intro a
  match a with
  | ⟨0, _⟩ =>
    show 0 * 10000 ≤ (i 0).val ∧ (i 0).val < 0 * 10000 + 10000
    have h0 : (i 0).val < 10000 := (i 0).isLt
    omega
  | ⟨1, _⟩ =>
    show 0 * 128 ≤ (i 1).val ∧ (i 1).val < 0 * 128 + 128
    have h1 : (i 1).val < 128 := (i 1).isLt
    omega

/-- The intermediate array after the region's one write-back. -/
theorem final (c : Dev nD) :
    ((Xw.dat (F := Ideal) V c).arrAt 2 cfg0.N : S10000x128.Idx → EReal)
      = fun i => Cert.Spec.proj (V c main_arg0 : S10000x128.Idx → EReal) (V c main_arg2 : S128x128.Idx → EReal) (i 0) (i 1) :=
  (Xw.dat (F := Ideal) V c).arrAt_eq_of_cover 2 (projOf (V c main_arg0) (V c main_arg2))
    (fun t _ => flushed_eq V c t) covered

end Cert.KernelIdeal.XwFinal

end
-- ==== Proof.Ideal.AdjFinal.lean ====
/-
  The result array after the second region, over the extended reals: the fifteen points' write-backs, the last cut at the
  array's end, together cover the array's 10000 rows, and each writes the rows of one function of the region's entry
  contents: row `r` of the adjacency matrix against column `c` of the intermediate array, then the positive part.
-/
import proofs.«109493_g37048387895419_cont_8to1_b_82_7_alg».proof.Proof.Ideal.AdjData
import proofs.«109493_g37048387895419_cont_8to1_b_82_7_alg».proof.Proof.Ideal.Payload
import proofs.«109493_g37048387895419_cont_8to1_b_82_7_alg».proof.Proof.Spec

set_option maxRecDepth 16384

noncomputable section

namespace Cert.KernelIdeal.AdjFinal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

/-- Row `i 0` of a 10000 × 10000 array against column `i 1` of a 10000 × 128 array, then the positive part. -/
abbrev adjConv (A : S10000x10000.Idx → EReal) (X : S10000x128.Idx → EReal) : S10000x128.Idx → EReal :=
  fun i => max (∑ l : Fin 10000, A (ix2 (i 0) l) * X (ix2 l (i 1))) 0

/-- At an entry given by its two coordinates: the sum over `l` of the row's entry `l` times the column's entry `l`, then the
    positive part. -/
theorem adjConv_apply (A : S10000x10000.Idx → EReal) (X : S10000x128.Idx → EReal) (R : Fin 10000) (q : Fin 128) :
    adjConv A X (ix2 R q) = max (∑ l : Fin 10000, A (ix2 R l) * X (ix2 l q)) 0 := rfl

/-- The whole-array function the write-backs are blocks of. -/
def G (c : Dev nD) : S10000x128.Idx → EReal := adjConv (V c main_arg1) (V c main_v0)

/-- The block indices and the cut sizes at every point of the grid: the intermediate array is one block at index 0;
    the adjacency matrix and the result move together, row-block `t` at point `t`, all columns; both are cut to the same
    number of rows, and point `t`'s rows end at `min ((t + 1) * 680) 10000`. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_1.xsize (grid1.coords t) (0 : Fin 2) = win1_2.xsize (grid1.coords t) (0 : Fin 2)
    ∧ win1_1.xsize (grid1.coords t) (1 : Fin 2) = 10000
    ∧ win1_2.xsize (grid1.coords t) (1 : Fin 2) = 128
    ∧ t.val * 680 + win1_2.xsize (grid1.coords t) (0 : Fin 2) = min ((t.val + 1) * 680) 10000 :=
  (by decide +kernel : ∀ t : Fin grid1.N, _)

/-- The resident block of the intermediate array is the whole array: entry `(l, q)` of the block is entry `(l, q)`. -/
theorem inter_entry (c : Dev nD) (t : Fin cfg1.N) (l : Fin 10000) (q : Fin 128) :
    AdjData.iblk (F := Ideal) V c 0 t (ix2 l q) = (V c main_v0 : S10000x128.Idx → EReal) (ix2 l q) := by
  obtain ⟨e00, e01, -⟩ := idx_facts t
  show V c main_v0 (((cfg1.win 0).blk t).view.emb (ix2 l q)) = V c main_v0 (ix2 l q)
  refine congrArg _ (funext fun a => Fin.ext ?_)
  match a with
  | ⟨0, _⟩ => show win1_0.index t (0 : Fin 2) * 10000 + 1 * l.val = l.val; omega
  | ⟨1, _⟩ => show win1_0.index t (1 : Fin 2) * 128 + 1 * q.val = q.val; omega

/-- A row of the adjacency buffer that lies inside the array holds the matrix's row there: row `r` of point `t`'s block is
    row `t * 680 + r` of the matrix. -/
theorem adj_entry (c : Dev nD) (t : Fin cfg1.N) (r : Fin 680) (l : Fin 10000) (R : Fin 10000)
    (hr : r.val < win1_1.xsize (grid1.coords t) (0 : Fin 2)) (hR : R.val = t.val * 680 + r.val) :
    AdjData.ablk (F := Ideal) V c t (ix2 r l) = (V c main_arg1 : S10000x10000.Idx → EReal) (ix2 R l) := by
  obtain ⟨-, -, e10, e11, -, -, -, x11, -⟩ := idx_facts t
  have hm : win1_1.moved (grid1.coords t) (ix2 r l) = true := (win1_1.moved_iff _ _).mpr fun a => by
    match a with
    | ⟨0, _⟩ => exact hr
    | ⟨1, _⟩ => show l.val < win1_1.xsize (grid1.coords t) (1 : Fin 2); rw [x11]; exact l.isLt
  unfold AdjData.ablk Window.fill
  rw [dif_pos hm]
  show V c main_arg1 (((cfg1.win 1).blk t).view.emb _) = V c main_arg1 (ix2 R l)
  refine congrArg _ (funext fun a => Fin.ext ?_)
  match a with
  | ⟨0, _⟩ => show win1_1.index t (0 : Fin 2) * 680 + 1 * r.val = R.val; omega
  | ⟨1, _⟩ => show win1_1.index t (1 : Fin 2) * 10000 + 1 * l.val = l.val; omega

/-- What point `t` writes back is its block of `G`: at row `r` inside the array and column `q`, the body's product of
    row `r` of the adjacency block with column `q` of the intermediate array, then the positive part, is `G` at row
    `t * 680 + r`, column `q`. -/
theorem flushed_eq (c : Dev nD) (t : Fin cfg1.N) :
    (AdjData.dat (F := Ideal) V c).flushed 2 t = ((cfg1.win 2).blk t).view.read (Elt Ideal) (G V c) := by
  show (cfg1.win 2).cut (grid1.coords t) ((AdjData.dat (F := Ideal) V c).after 2 t) = _
  rw [AdjData.after_2, Adj.out_eq]
  obtain ⟨-, -, -, -, e20, e21, x10, -, x21, hend⟩ := idx_facts t
  funext j
  have hj0 : (j 0).val < win1_2.xsize (grid1.coords t) (0 : Fin 2) := (j 0).isLt
  have hj1 : (j 1).val < win1_2.xsize (grid1.coords t) (1 : Fin 2) := (j 1).isLt
  have hle : win1_2.xsize (grid1.coords t) (0 : Fin 2) ≤ 680 := win1_2.xsize_le _ _
  obtain ⟨r, hr⟩ : ∃ r : Fin 680, r.val = (j 0).val := ⟨⟨(j 0).val, by omega⟩, rfl⟩
  obtain ⟨q, hq⟩ : ∃ q : Fin 128, q.val = (j 1).val := ⟨⟨(j 1).val, by omega⟩, rfl⟩
  obtain ⟨R, hR⟩ : ∃ R : Fin 10000, R.val = t.val * 680 + r.val := ⟨⟨t.val * 680 + r.val, by omega⟩, rfl⟩
  have hxinj : win1_2.xinj (grid1.coords t) j = ix2 r q := funext fun a => Fin.ext (by
    match a with
    | ⟨0, _⟩ => exact hr.symm
    | ⟨1, _⟩ => exact hq.symm)
  have hemb : ((cfg1.win 2).blk t).view.emb j = ix2 R q := funext fun a => Fin.ext (by
    match a with
    | ⟨0, _⟩ => show win1_2.index t (0 : Fin 2) * 680 + 1 * (j 0).val = R.val; omega
    | ⟨1, _⟩ => show win1_2.index t (1 : Fin 2) * 128 + 1 * (j 1).val = q.val; omega)
  show k1_pay1 (F := Ideal) (AdjData.ablk V c t) (AdjData.iblk V c 0 t) (win1_2.xinj (grid1.coords t) j)
      = G V c (((cfg1.win 2).blk t).view.emb j)
  refine ((congrArg (k1_pay1 (F := Ideal) (AdjData.ablk V c t) (AdjData.iblk V c 0 t)) hxinj).trans ?_).trans
    (congrArg (G V c) hemb).symm
  refine ((Payload.pay1_apply _ _ r q).trans ?_).trans (adjConv_apply (V c main_arg1) (V c main_v0) R q).symm
  refine congrArg (fun s : EReal => max s 0) (Finset.sum_congr rfl fun l _ => ?_)
  rw [adj_entry V c t r l R (by omega) hR, inter_entry V c t l q]

/-- An index of the result array is in point `t`'s block iff each coordinate is in the block's range on its axis, the
    range on the row axis cut at the array's end. -/
theorem mem_blk (t : Fin cfg1.N) (i : S10000x128.Idx) :
    i ∈ ((cfg1.win 2).blk t).view.set ↔ ∀ a : Fin 2, win1_2.index t a * S680x128.size a ≤ (i a).val
      ∧ (i a).val < win1_2.index t a * S680x128.size a + win1_2.xsize (grid1.coords t) a := by
  show i ∈ ((View.whole main_v1).slice (win1_2.rect t)).set ↔ _
  rw [View.set_slice_whole, Rect.mem_set_unit]
  exact Iff.rfl

/-- Every row below 10000 lies in the block of the point its quotient by 680 names: rows `t * 680` up to
    `min ((t + 1) * 680) 10000`. -/
theorem cover (i : S10000x128.Idx) :
    ∃ t : Fin cfg1.N, (cfg1.win 2).flush t = true ∧ i ∈ ((cfg1.win 2).blk t).view.set := by
  have hi0 : (i 0).val < 10000 := (i 0).isLt
  have hi1 : (i 1).val < 128 := (i 1).isLt
  have hN : cfg1.N = 15 := N_1
  obtain ⟨t, ht⟩ : ∃ t : Fin cfg1.N, t.val = (i 0).val / 680 := ⟨⟨(i 0).val / 680, by omega⟩, rfl⟩
  obtain ⟨-, -, -, -, e20, e21, -, -, x21, hend⟩ := idx_facts t
  refine ⟨t, flush1_2 t, ?_⟩
  rw [mem_blk]
  intro a
  match a with
  | ⟨0, _⟩ =>
    show win1_2.index t (0 : Fin 2) * 680 ≤ (i 0).val ∧ (i 0).val < win1_2.index t (0 : Fin 2) * 680 + win1_2.xsize (grid1.coords t) (0 : Fin 2)
    omega
  | ⟨1, _⟩ =>
    show win1_2.index t (1 : Fin 2) * 128 ≤ (i 1).val ∧ (i 1).val < win1_2.index t (1 : Fin 2) * 128 + win1_2.xsize (grid1.coords t) (1 : Fin 2)
    omega

/-- The result array after the region's fifteen write-backs. -/
theorem final (c : Dev nD) :
    ((AdjData.dat (F := Ideal) V c).arrAt 2 cfg1.N : S10000x128.Idx → EReal) = G V c :=
  (AdjData.dat (F := Ideal) V c).arrAt_eq_of_cover 2 (G V c) (fun t _ => flushed_eq V c t) cover

end Cert.KernelIdeal.AdjFinal

end
-- ==== Proof.Ideal.Value.lean ====
/-
  What the idealized kernel program's run leaves, read at the last valuation: each argument array as launched (no region
  writes an argument: each is read through an input window or bypassed), and the result array at the positive part of
  the adjacency matrix times the projected features: the second region's result over the intermediate array the first
  region left.
-/
import proofs.«109493_g37048387895419_cont_8to1_b_82_7_alg».proof.Proof.Ideal.Run
import proofs.«109493_g37048387895419_cont_8to1_b_82_7_alg».proof.Proof.Ideal.XwFinal
import proofs.«109493_g37048387895419_cont_8to1_b_82_7_alg».proof.Proof.Ideal.AdjFinal

set_option maxRecDepth 16384

noncomputable section

namespace Cert.KernelIdeal.Value

open Cert.KernelIdeal Cert.KernelIdeal.Gen Cert.KernelIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The arguments at the two later boundaries -/

theorem W1_main_arg0 (c : Dev nD) : W1 m c (Proc.devRef .tc main_arg0) = m ((c : Thread nD τ).loc main_arg0) :=
  (W1_arr m c 0).trans (((Xw.dat (VA m) c).arrAt_in 0 rfl _).trans (Xw.A_eq (VA m) c 0))
theorem W1_main_arg2 (c : Dev nD) : W1 m c (Proc.devRef .tc main_arg2) = m ((c : Thread nD τ).loc main_arg2) :=
  (W1_arr m c 1).trans (((Xw.dat (VA m) c).arrAt_in 1 rfl _).trans (Xw.A_eq (VA m) c 1))
theorem W1_main_arg1 (c : Dev nD) : W1 m c (Proc.devRef .tc main_arg1) = m ((c : Thread nD τ).loc main_arg1) :=
  W1_of_ne m c main_arg1 (by decide)

theorem W2_main_arg0 (c : Dev nD) : W2 m c (Proc.devRef .tc main_arg0) = m ((c : Thread nD τ).loc main_arg0) :=
  (W2_of_ne m c main_arg0 (by decide)).trans (W1_main_arg0 m c)
theorem W2_main_arg2 (c : Dev nD) : W2 m c (Proc.devRef .tc main_arg2) = m ((c : Thread nD τ).loc main_arg2) :=
  (W2_of_ne m c main_arg2 (by decide)).trans (W1_main_arg2 m c)
theorem W2_main_arg1 (c : Dev nD) : W2 m c (Proc.devRef .tc main_arg1) = m ((c : Thread nD τ).loc main_arg1) :=
  (W2_arr m c 1).trans (((AdjData.dat (VB m) c).arrAt_in 1 rfl _).trans ((AdjData.A_eq (VB m) c 1).trans (W1_main_arg1 m c)))

/-! ## The result -/

/-- The intermediate array as the second region finds it: the projected features. -/
theorem W1_main_v0 (c : Dev nD) :
    (W1 m c (Proc.devRef .tc main_v0) : S10000x128.Idx → EReal)
      = fun i => Cert.Spec.proj (m ((c : Thread nD τ).loc main_arg0) : S10000x128.Idx → EReal) (m ((c : Thread nD τ).loc main_arg2) : S128x128.Idx → EReal) (i 0) (i 1) :=
  (W1_arr m c 2).trans (XwFinal.final (VA m) c)

/-- The result array at the end of the run. -/
theorem W2_main_v1 (c : Dev nD) :
    (W2 m c (Proc.devRef .tc main_v1) : S10000x128.Idx → EReal)
      = Cert.Spec.graphConv (m ((c : Thread nD τ).loc main_arg0) : S10000x128.Idx → EReal) (m ((c : Thread nD τ).loc main_arg1) : S10000x10000.Idx → EReal)
          (m ((c : Thread nD τ).loc main_arg2) : S128x128.Idx → EReal) := by
  refine ((W2_arr m c 2).trans (AdjFinal.final (VB m) c)).trans ?_
  have h1 : (VB m c main_arg1 : S10000x10000.Idx → EReal) = m ((c : Thread nD τ).loc main_arg1) := W1_main_arg1 m c
  have h0 : (VB m c main_v0 : S10000x128.Idx → EReal)
      = fun i => Cert.Spec.proj (m ((c : Thread nD τ).loc main_arg0) : S10000x128.Idx → EReal) (m ((c : Thread nD τ).loc main_arg2) : S128x128.Idx → EReal) (i 0) (i 1) :=
    W1_main_v0 m c
  show AdjFinal.adjConv (VB m c main_arg1 : S10000x10000.Idx → EReal) (VB m c main_v0 : S10000x128.Idx → EReal) = _
  rw [h1, h0]
  try rfl

end Cert.KernelIdeal.Value

end
-- ==== Proof.Assoc.lean ====
/-
  Matrix product is associative on real-valued entries of the extended reals: a sum over `l` of a row
  entry times an inner sum over `k` equals the sum over `k` of the inner sums over `l` times the column entry.
  On the extended reals this needs every entry real: distributivity fails at the infinities.
-/
import proofs.«109493_g37048387895419_cont_8to1_b_82_7_alg».proof.Proof.Spec

noncomputable section

namespace Cert.Spec

/-- The inclusion of the reals in the extended reals commutes with finite sums: it sends zero to zero
and a sum of two to the sum of the images, so the claim follows by induction on the index set. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Both sides are the double sum of `a l * X l k * w k`: with every entry real the products and sums are
images of real products and sums, where multiplication distributes over finite sums and the two
summations may be exchanged. -/
theorem sum_assoc {L K : ℕ} (a : Fin L → EReal) (X : Fin L → Fin K → EReal) (w : Fin K → EReal)
    (ha : ∀ l, ∃ r : ℝ, a l = (r : EReal)) (hX : ∀ l k, ∃ r : ℝ, X l k = (r : EReal)) (hw : ∀ k, ∃ r : ℝ, w k = (r : EReal)) :
    ∑ k : Fin K, (∑ l : Fin L, a l * X l k) * w k = ∑ l : Fin L, a l * ∑ k : Fin K, X l k * w k := by
  choose ra hra using ha
  choose rX hrX using hX
  choose rv hrv using hw
  obtain rfl : a = fun l => (ra l : EReal) := funext hra
  obtain rfl : X = fun l k => (rX l k : EReal) := funext fun l => funext fun k => hrX l k
  obtain rfl : w = fun k => (rv k : EReal) := funext hrv
  -- every product and sum is the image of the corresponding real one
  have hL : ∑ k : Fin K, (∑ l : Fin L, (ra l : EReal) * (rX l k : EReal)) * (rv k : EReal)
      = ((∑ k : Fin K, (∑ l : Fin L, ra l * rX l k) * rv k : ℝ) : EReal) := by
    rw [coe_finsum]
    refine Finset.sum_congr rfl fun k _ => ?_
    rw [EReal.coe_mul, coe_finsum]
    refine congrArg (· * (rv k : EReal)) (Finset.sum_congr rfl fun l _ => ?_)
    rw [EReal.coe_mul]
  have hR : ∑ l : Fin L, (ra l : EReal) * ∑ k : Fin K, (rX l k : EReal) * (rv k : EReal)
      = ((∑ l : Fin L, ra l * ∑ k : Fin K, rX l k * rv k : ℝ) : EReal) := by
    rw [coe_finsum]
    refine Finset.sum_congr rfl fun l _ => ?_
    rw [EReal.coe_mul, coe_finsum]
    refine congrArg ((ra l : EReal) * ·) (Finset.sum_congr rfl fun k _ => ?_)
    rw [EReal.coe_mul]
  rw [hL, hR]
  refine congrArg _ ?_
  -- in the reals: distribute, exchange the two sums, reassociate each term
  simp only [Finset.sum_mul, Finset.mul_sum]
  rw [Finset.sum_comm]
  exact Finset.sum_congr rfl fun l _ => Finset.sum_congr rfl fun k _ => mul_assoc _ _ _

end Cert.Spec

end
-- ==== Proof.RefValue.lean ====
/-
  The reference's result as a function of its three arguments, read one host operation at a time:
  (adj · x) · w, then the positive part. On real-valued arguments this is adj · (x · w), then the positive part.
-/
import proofs.«109493_g37048387895419_cont_8to1_b_82_7_alg».proof.Defs
import proofs.«109493_g37048387895419_cont_8to1_b_82_7_alg».proof.Proof.Gen.ReferenceIdeal.Run
import proofs.«109493_g37048387895419_cont_8to1_b_82_7_alg».proof.Proof.Gen.ReferenceIdeal.Read
import proofs.«109493_g37048387895419_cont_8to1_b_82_7_alg».proof.Proof.Spec
import proofs.«109493_g37048387895419_cont_8to1_b_82_7_alg».proof.Proof.Assoc

noncomputable section

namespace Cert.RefValue

open Idealize.ShloMosaic Cert.Spec

open Idealize.ShloMosaic.ValueIdx Cert.ReferenceIdeal.Read in
/-- The first product's left operand is read at row `r`, contracted position `l`. -/
theorem lidx0 (r : Fin 10000) (k : Fin 128) (l : Fin 10000) :
    lidx_main_v0 (ix2 r k) l = ix2 r l :=
  funext fun a => by match a with | ⟨0, _⟩ => rfl | ⟨1, _⟩ => rfl

open Idealize.ShloMosaic.ValueIdx Cert.ReferenceIdeal.Read in
/-- The first product's right operand is read at contracted position `l`, column `k`. -/
theorem ridx0 (r : Fin 10000) (k : Fin 128) (l : Fin 10000) :
    ridx_main_v0 (ix2 r k) l = ix2 l k :=
  funext fun a => by match a with | ⟨0, _⟩ => rfl | ⟨1, _⟩ => rfl

open Idealize.ShloMosaic.ValueIdx Cert.ReferenceIdeal.Read in
/-- The second product's left operand is read at row `r`, contracted position `k`. -/
theorem lidx1 (r : Fin 10000) (c : Fin 128) (k : Fin 128) :
    lidx_main_v1 (ix2 r c) k = ix2 r k :=
  funext fun a => by match a with | ⟨0, _⟩ => rfl | ⟨1, _⟩ => rfl

open Idealize.ShloMosaic.ValueIdx Cert.ReferenceIdeal.Read in
/-- The second product's right operand is read at contracted position `k`, column `c`. -/
theorem ridx1 (r : Fin 10000) (c : Fin 128) (k : Fin 128) :
    ridx_main_v1 (ix2 r c) k = ix2 k c :=
  funext fun a => by match a with | ⟨0, _⟩ => rfl | ⟨1, _⟩ => rfl

open Idealize.ShloMosaic.ValueIdx Cert.ReferenceIdeal.Read in
/-- Entry `(r, c)` of the reference's result is the positive part of
`∑ k, (∑ l, adj[r, l] · x[l, k]) · w[k, c]`; with every entry real, the inner and outer sums may be
exchanged and the products reassociated, which gives `∑ l, adj[r, l] · (∑ k, x[l, k] · w[k, c])`. -/
theorem ref_eq (x : FVec Ideal Cert.ReferenceIdeal.S10000x128 .f32) (adj : FVec Ideal Cert.ReferenceIdeal.S10000x10000 .f32)
    (w : FVec Ideal Cert.ReferenceIdeal.S128x128 .f32)
    (hx : AllReal (S := SX) x) (hadj : AllReal (S := SA) adj) (hw : AllReal (S := SW) w) :
    Cert.ReferenceIdeal.Read.val_main_v2 (F := Ideal) x adj w = graphConv x adj w := by
  funext i
  obtain ⟨r, c, rfl⟩ : ∃ (r : Fin 10000) (c : Fin 128), i = ix2 r c := ⟨i 0, i 1, eq_ix2 i⟩
  show _ = convAt x adj w r c
  rw [val_main_v2_apply, val_main_call0_v0_apply, val_main_call0_cst_apply, Ideal.maximumf_def,
    Ideal.ofBits_def, Ideal.ofBits_zero_f32, val_main_v1_apply]
  unfold convAt
  -- the two sides are the positive parts of two sums; the sums agree by associativity
  refine congrArg (fun t : EReal => max t 0) ?_
  have h : ∑ k : Fin 128, (∑ l : Fin 10000, adj (ix2 r l) * x (ix2 l k)) * w (ix2 k c)
      = ∑ l : Fin 10000, adj (ix2 r l) * proj x w l c :=
    sum_assoc (fun l => adj (ix2 r l)) (fun l k => x (ix2 l k)) (fun k => w (ix2 k c))
      (fun l => hadj _) (fun l k => hx _) (fun k => hw _)
  refine Eq.trans (Finset.sum_congr rfl fun k _ => ?_) h
  rw [lidx1, ridx1, val_main_v0_apply]
  refine congrArg (fun t : EReal => t * w (ix2 k c)) (Finset.sum_congr rfl fun l _ => ?_)
  rw [lidx0, ridx0]

end Cert.RefValue

end
-- ==== Proof.Finite.lean ====
/-
  The precondition says every entry of each of the three argument arrays has absolute value below +∞;
  so every entry is a real number.
-/
import proofs.«109493_g37048387895419_cont_8to1_b_82_7_alg».proof.Pre_finite_inputs
import proofs.«109493_g37048387895419_cont_8to1_b_82_7_alg».proof.Proof.Gen.Pre_finite_inputs
import proofs.«109493_g37048387895419_cont_8to1_b_82_7_alg».proof.Proof.Spec
import Idealize.ShloMosaic.Lib.ReduceAll

noncomputable section

namespace Cert.Finite

open Idealize.ShloMosaic Cert.Spec

/-- The rank-0 shape has exactly one index. -/
instance subsingleton_scalarIdx : Subsingleton Cert.Pre_finite_inputs.S_.Idx :=
  ⟨fun a b => funext fun d => d.elim0⟩

/-- The 32-bit pattern 0x7F800000 denotes +∞. -/
theorem ofBits_posInf : Ideal.ofBits .f32 0x7F800000#32 = (⊤ : EReal) := by
  simp [Ideal.ofBits, Ideal.ieee]

/-- An extended real whose absolute value max a (-a) lies strictly below +∞ is a real number:
    at a = ⊤ the maximum is ⊤, at a = ⊥ its second operand -⊥ = ⊤ makes it ⊤ again. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One array, any shape: if the conjunction over all entries of "|v i| < +∞" came out true,
    every entry of v is a real number. -/
theorem allReal_of_all {S : Shape} {axes : List (Fin S.rank)} (v : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf v)
            (broadcastInDim S ![] hb (constant (F := Ideal) Cert.Pre_finite_inputs.S_ .f32 0x7F800000#32)))
          init hr hu ValueIdx.ix0 = 1#1) :
    AllReal (S := S) v := by
  intro i
  have hi := Host.reduce_andi_all _ init hr hu ValueIdx.ix0 e i
  -- the entry of the comparison array at i is the truth value of max (v i) (-(v i)) < +∞
  have hlt : BitVec.ofBool (decide (max (v i) (-(v i)) < Ideal.ofBits .f32 0x7F800000#32)) = 1#1 := hi
  rw [ofBits_posInf] at hlt
  refine real_of_abs_lt_top (v i) ?_
  by_contra hn
  rw [decide_eq_false hn] at hlt
  exact absurd hlt (by decide)

theorem allReal_of_pre [Cert.Pre_finite_inputs.Facts]
    (x : FVec Ideal Cert.Pre_finite_inputs.S10000x128 .f32) (adj : FVec Ideal Cert.Pre_finite_inputs.S10000x10000 .f32)
    (w : FVec Ideal Cert.Pre_finite_inputs.S128x128 .f32)
    (h : Cert.Pre_finite_inputs.fn (F := Ideal) x adj w = fun _ => 1#1) :
    AllReal (S := SX) x ∧ AllReal (S := SA) adj ∧ AllReal (S := SW) w := by
  have h0 := congrFun h ValueIdx.ix0
  dsimp only [Cert.Pre_finite_inputs.fn, andi] at h0
  obtain ⟨h12, h3⟩ := IntOp.andi_eq_one.1 h0
  obtain ⟨h1, h2⟩ := IntOp.andi_eq_one.1 h12
  exact ⟨allReal_of_all x _ _ _ _ h1, allReal_of_all adj _ _ _ _ h2, allReal_of_all w _ _ _ _ h3⟩

end Cert.Finite

end
-- ==== Proof.lean ====
/-
  A graph convolution layer, relu((adj · x) · w), computed two ways over f32[10000, 128] features `x`, a dense
  f32[10000, 10000] adjacency matrix `adj` and f32[128, 128] weights `w`.
  The kernel program uses associativity: a first kernel forms the projected features x · w once; a second streams the
  adjacency matrix in fifteen row-blocks of 680 rows and stores the positive part of block · (x · w). Since 15 · 680
  exceeds 10000, the last block overhangs the array by 200 rows: its fetch lands 480 rows and leaves the rest of the
  staging buffer at words nothing names, and its write-back writes 480 rows. A row of a matrix product depends on the
  same row of the left factor only, so over the extended reals the rows written back do not depend on those words.
  The reference forms (adj · x) · w with two host products and takes the positive part.
  Over the extended reals the two results agree entry by entry when every input entry is a real number — which the
  precondition states —: ∑ₖ (∑ₗ adj[r,l] · x[l,k]) · w[k,c] = ∑ₗ adj[r,l] · (∑ₖ x[l,k] · w[k,c]), by distributivity and
  exchanging the two finite sums. Distributivity fails at the infinities, so the precondition is used.
  The frames: the idealized kernel program's from its exact run; the word-level program's from a run that follows the
  first region exactly and says nothing of what the second region's body leaves in its two cut windows (at the word level
  the matrix unit's product is a function of its whole left operand, unnamed words included; the frame does not read it);
  the reference's from its run with the result dropped. The ideal pass rewrote nothing, so there is nothing to preserve.
-/
import proofs.«109493_g37048387895419_cont_8to1_b_82_7_alg».proof.Defs
import proofs.«109493_g37048387895419_cont_8to1_b_82_7_alg».proof.Proof.Gen.Kernel
import proofs.«109493_g37048387895419_cont_8to1_b_82_7_alg».proof.Proof.Gen.KernelIdeal
import proofs.«109493_g37048387895419_cont_8to1_b_82_7_alg».proof.Proof.Gen.ReferenceIdeal
import proofs.«109493_g37048387895419_cont_8to1_b_82_7_alg».proof.Proof.Gen.Pre_finite_inputs
import proofs.«109493_g37048387895419_cont_8to1_b_82_7_alg».proof.Proof.Gen.ReferenceIdeal.Run
import proofs.«109493_g37048387895419_cont_8to1_b_82_7_alg».proof.Proof.Gen.ReferenceIdeal.Read
import proofs.«109493_g37048387895419_cont_8to1_b_82_7_alg».proof.Proof.Bits.Run
import proofs.«109493_g37048387895419_cont_8to1_b_82_7_alg».proof.Proof.Ideal.Value
import proofs.«109493_g37048387895419_cont_8to1_b_82_7_alg».proof.Proof.RefValue
import proofs.«109493_g37048387895419_cont_8to1_b_82_7_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to the end and leaves its three arguments as launched. -/
theorem frame_k : Cert.frame_Kernel := fun m ρ _ => Cert.Kernel.Run.frame (F := Bits) m ρ

/-- So does the idealized kernel program: its exact run, read at the three arguments. -/
theorem frame_ki : Cert.frame_KernelIdeal := fun m ρ _ =>
  (θ_run Cert.KernelIdeal.defs _ _).mono
    (fun r h c => ⟨(h c _ (Cert.KernelIdeal.Run.mem_uc Cert.KernelIdeal.main_arg0 (by decide))).trans (Cert.KernelIdeal.Value.W2_main_arg0 m c),
      (h c _ (Cert.KernelIdeal.Run.mem_uc Cert.KernelIdeal.main_arg1 (by decide))).trans (Cert.KernelIdeal.Value.W2_main_arg1 m c),
      (h c _ (Cert.KernelIdeal.Run.mem_uc Cert.KernelIdeal.main_arg2 (by decide))).trans (Cert.KernelIdeal.Value.W2_main_arg2 m c)⟩)
    (Cert.KernelIdeal.Run.run m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at `graphConv` of the (agreeing) arguments: the kernel's by its run,
    the reference's because (adj · x) · w is adj · (x · w) on real-valued entries. -/
theorem algebraic : Cert.algebraic_KernelIdeal_ReferenceIdeal := by
  intro m ρ m' ρ' hpre hagree
  refine ⟨fun c => Cert.Spec.graphConv (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c _ (Cert.KernelIdeal.Run.mem_uc Cert.KernelIdeal.main_v1 (by decide))).trans (Cert.KernelIdeal.Value.W2_main_v1 m c),
        (h c _ (Cert.KernelIdeal.Run.mem_uc Cert.KernelIdeal.main_arg0 (by decide))).trans (Cert.KernelIdeal.Value.W2_main_arg0 m c),
        (h c _ (Cert.KernelIdeal.Run.mem_uc Cert.KernelIdeal.main_arg1 (by decide))).trans (Cert.KernelIdeal.Value.W2_main_arg1 m c),
        (h c _ (Cert.KernelIdeal.Run.mem_uc Cert.KernelIdeal.main_arg2 (by decide))).trans (Cert.KernelIdeal.Value.W2_main_arg2 m c)⟩)
      (Cert.KernelIdeal.Run.run m ρ)
  · refine (θ_run Cert.ReferenceIdeal.defs _ _).mono (fun _ h c => ⟨(h c).1.trans ?_, (h c).2⟩)
      (Cert.ReferenceIdeal.Value.run (F := Ideal) m' ρ')
    obtain ⟨hx, hadj, hw⟩ := Cert.Finite.allReal_of_pre _ _ _ (hpre c)
    rw [(hagree c).1, (hagree c).2.1, (hagree c).2.2, Cert.ReferenceIdeal.Read.val_main_v2_eq]
    exact Cert.RefValue.ref_eq _ _ _ hx hadj hw

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
